-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S64x3 .f32) (main_arg6 : FVec F S64x3 .f32) (main_arg7 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x3 .f32 := Host.absf main_arg5
  let main_cst_6 : FVec F S_ .f32 := constant S_ .f32 0x7F800000#32
  let main_v20 : FVec F S64x3 .f32 := broadcastInDim S64x3 ![] bcast_S_S64x3 main_cst_6
  let main_v21 : IVec S64x3 1 := cmpf .olt main_v19 main_v20
  let main_c_7 : IVec S_ 1 := constantI S_ 1 1#1
  let main_v22 : IVec S_ 1 := (fun x v => Host.reduce IntOp.andi x v reducesTo_S64x3_S_d0_1 h_S_) main_v21 main_c_7
  let main_v23 : IVec S_ 1 := andi main_v18 main_v22
  let main_v24 : FVec F S64x3 .f32 := Host.absf main_arg6
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x64 .f32) (main_arg3 : FVec F S128x64 .f32) (main_arg4 : FVec F S64 .f32) (main_arg5 : FVec F S64x3 .f32) (main_arg6 : FVec F S64x3 .f32) (main_arg7 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S600000x64 : Shape := ⟨2, ![600000, 64]⟩
abbrev S1x3 : Shape := ⟨2, ![1, 3]⟩
abbrev S100000x3 : Shape := ⟨2, ![100000, 3]⟩
abbrev S5000x3 : Shape := ⟨2, ![5000, 3]⟩
abbrev S5000 : Shape := ⟨1, ![5000]⟩
abbrev S5000x1 : Shape := ⟨2, ![5000, 1]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x3, .f32⟩
  | .hbm, ⟨6, _⟩ => ⟨S64x3, .f32⟩
  | .hbm, ⟨7, _⟩ => ⟨S3, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x64, .f32⟩
  | .hbm, ⟨51, _⟩ => ⟨S_, .f32⟩
  | .hbm, ⟨52, _⟩ => ⟨S100000x64, .f32⟩
  | .hbm, ⟨53, _⟩ => ⟨S600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x3, .f32⟩
  | .hbm, ⟨58, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x3, .f32⟩
  | .local _ .vmem, ⟨14, _⟩ => ⟨S64x3, .f32⟩
  | .local _ .vmem, ⟨15, _⟩ => ⟨S1x3, .f32⟩
  | .local _ .vmem, ⟨16, _⟩ => ⟨S5000x3, .f32⟩
  | .local _ .vmem, ⟨17, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S3_S1x3 : S3.ShapeCasts S1x3
  shapeCasts_S5000x64_S5000x64 : S5000x64.ShapeCasts S5000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S5000 : S5000x3.Reduces [1] S5000
  shapeCasts_S5000_S5000x1 : S5000.ShapeCasts S5000x1
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x64_S5000x64_1_0_0_1_n_n_wf : DotDims.WF S5000x128 S128x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S5000x64_S64x3_S5000x3_1_0_0_1_n_n_wf : DotDims.WF S5000x64 S64x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x3.size a ≤ S64x3.size a
  hwx1_2 : ∀ i : grid1.Coords, EltTy.bits .f32 = 32 ∨ (Rect.block (s := S64x3) S64x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x3.size a ≤ S64x3.size a
  hwx1_3 : ∀ i : grid1.Coords, EltTy.bits .f32 = 32 ∨ (Rect.block (s := S64x3) S64x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3.size a ≤ S1x3.size a
  hwx1_4 : ∀ i : grid1.Coords, EltTy.bits .f32 = 32 ∨ (Rect.block (s := S1x3) S1x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x3.size a ≤ S100000x3.size a
  hwx1_5 : ∀ i : grid1.Coords, EltTy.bits .f32 = 32 ∨ (Rect.block (s := S100000x3) S5000x3.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x3.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S600000x64 : Shape := ⟨2, ![600000, 64]⟩
abbrev S100000x3 : Shape := ⟨2, ![100000, 3]⟩
abbrev S1x3 : Shape := ⟨2, ![1, 3]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x3, .f32⟩
  | .hbm, ⟨6, _⟩ => ⟨S64x3, .f32⟩
  | .hbm, ⟨7, _⟩ => ⟨S3, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x64, .f32⟩
  | .hbm, ⟨55, _⟩ => ⟨S_, .f32⟩
  | .hbm, ⟨56, _⟩ => ⟨S100000x64, .f32⟩
  | .hbm, ⟨57, _⟩ => ⟨S600000x1, .i32⟩
  | .hbm, ⟨58, _⟩ => ⟨S100000x64, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S100000, .f32⟩
  | .hbm, ⟨63, _⟩ => ⟨S600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x3, .f32⟩
  | .hbm, ⟨72, _⟩ => ⟨S100000x3, .f32⟩
  | .hbm, ⟨73, _⟩ => ⟨S100000x3, .f32⟩
  | .hbm, ⟨74, _⟩ => ⟨S1x3, .f32⟩
  | .hbm, ⟨75, _⟩ => ⟨S100000x3, .f32⟩
  | .hbm, ⟨76, _⟩ => ⟨S100000x3, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x3, .f32⟩
  | .hbm, ⟨84, _⟩ => ⟨S100000x3, .f32⟩
  | .hbm, ⟨85, _⟩ => ⟨S100000x3, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x3, .f32⟩
  | .hbm, ⟨91, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000x1_S100000x3_0_1 : S100000x1.BroadcastsInDim S100000x3 (![0, 1] : Fin 2 → Fin S100000x3.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x3_S100000x3_1_0_0_1_n_n_wf : DotDims.WF S100000x64 S64x3 S100000x3 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelHost.lean ====
/-
  What the host operations around the two kernel regions compute, as named terms of the arguments.

  The edge list is a 2 × E table of node numbers: row 0 the sources, row 1 the destinations. A source below zero is
  wrapped by the node count before it is used as a row number. For a feature matrix `h` the neighbour SUM of node v is
  the sum of `h[src e]` over the edges e with `dst e = v` (a gather of rows followed by a scatter-add), and the neighbour
  MEAN is that sum times `1 / max (degree v, 1)`, the degree being the scatter-add of ones over the destinations.

  The first region is entered with the mean of the input features, the features themselves, the first layer's weights and
  its bias laid out as one row; the second with the mean of the first region's output, that output, the second layer's
  weights and its bias as one row. No host operation writes an argument, and the first region writes only its output.
-/
import proofs.«135917_j4569845203115_1_alg».proof.Proof.Gen.KernelIdeal.Frame
import Idealize.ShloMosaic.Lib.StableHlo.Run

set_option maxRecDepth 16384

noncomputable section

namespace Cert.KernelIdeal.Aggregate

open Cert.KernelIdeal Cert.KernelIdeal.Gen
open Idealize.ShloMosaic Idealize.ShloMosaic.TcCoe Idealize.SL.Sem Idealize.ShloMosaic.StableHlo

variable {F : FTy → Type} [FloatOps F]

/-- Row `r` of the edge table as a vector of E node numbers. -/
def edgeRow0 (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000
def edgeRow1 (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The in-degree of every node: ones scatter-added over the destinations. -/
def degree (dst : (⟨S600000, .i32⟩ : BufTy).Contents (Elt F)) : (⟨S100000, .f32⟩ : BufTy).Contents (Elt F) :=
  Host.scatterAdd scatter_S100000_S600000x1_S600000_n_0_0_1
    (broadcastInDim S100000 ![] bcast_S_S100000 (constant S_ .f32 0x00000000#32))
    (broadcastInDim S600000x1 ![0] bcast_S600000_S600000x1_0 dst)
    (broadcastInDim S600000 ![] bcast_S_S600000 (constant S_ .f32 0x3F800000#32))

/-- `1 / max (degree, 1)` as a column. -/
def invDegree (dst : (⟨S600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf (degree dst) (broadcastInDim S100000 ![] bcast_S_S100000 (constant S_ .f32 0x3F800000#32))))

/-- The row numbers the gather reads: the sources, one below zero wrapped by the node count, as a column. -/
def gatherRows (src : (⟨S600000, .i32⟩ : BufTy).Contents (Elt F)) : (⟨S600000x1, .i32⟩ : BufTy).Contents (Elt F) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- The neighbour sum of 128 features. -/
def sum128 (x : (⟨S100000x128, .f32⟩ : BufTy).Contents (Elt F)) (src dst : (⟨S600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 x (gatherRows src))

/-- The neighbour mean of 128 features: the sum times the inverse degree column, whatever that column is. -/
def mean128 (x : (⟨S100000x128, .f32⟩ : BufTy).Contents (Elt F)) (src dst : (⟨S600000, .i32⟩ : BufTy).Contents (Elt F))
    (inv : (⟨S100000x1, .f32⟩ : BufTy).Contents (Elt F)) : (⟨S100000x128, .f32⟩ : BufTy).Contents (Elt F) :=
  mulf (sum128 x src dst) (broadcastInDim S100000x128 ![0, 1] bcast_S100000x1_S100000x128_0_1 inv)

/-- The neighbour sum of 64 features. -/
def sum64 (h : (⟨S100000x64, .f32⟩ : BufTy).Contents (Elt F)) (src dst : (⟨S600000, .i32⟩ : BufTy).Contents (Elt F)) :
    (⟨S100000x64, .f32⟩ : BufTy).Contents (Elt F) :=
  Host.scatterAdd scatter_S100000x64_S600000x1_S600000x64_1_0_0_1
    (broadcastInDim S100000x64 ![] bcast_S_S100000x64 (constant S_ .f32 0x00000000#32))
    (broadcastInDim S600000x1 ![0] bcast_S600000_S600000x1_0 dst)
    (Host.gather gather_S100000x64_S600000x1_S600000x64_1_0_n_n_0_1_164 h (gatherRows src))

/-- The neighbour mean of 64 features. -/
def mean64 (h : (⟨S100000x64, .f32⟩ : BufTy).Contents (Elt F)) (src dst : (⟨S600000, .i32⟩ : BufTy).Contents (Elt F))
    (inv : (⟨S100000x1, .f32⟩ : BufTy).Contents (Elt F)) : (⟨S100000x64, .f32⟩ : BufTy).Contents (Elt F) :=
  mulf (sum64 h src dst) (broadcastInDim S100000x64 ![0, 1] bcast_S100000x1_S100000x64_0_1 inv)

variable (m : (ℓ : Loc nD τ sig) → Buf (Elt F) ℓ) (ρ : Dev nD → PrngReg)

/-! ## The first region's entry contents -/

theorem W1_main_v1 (c : Dev nD) : W1 m ρ c (Proc.devRef .tc main_v1) = edgeRow0 (m ((c : Thread nD τ).loc main_arg1)) := by
  show StableHlo.after hostOps0 (W0 m ρ c) (Proc.devRef .tc main_v1) = _
  dsimp only [hostOps0]; after_results; rfl

theorem W1_main_v3 (c : Dev nD) : W1 m ρ c (Proc.devRef .tc main_v3) = edgeRow1 (m ((c : Thread nD τ).loc main_arg1)) := by
  show StableHlo.after hostOps0 (W0 m ρ c) (Proc.devRef .tc main_v3) = _
  dsimp only [hostOps0]; after_results; rfl

theorem W1_main_v12 (c : Dev nD) :
    W1 m ρ c (Proc.devRef .tc main_v12) = invDegree (edgeRow1 (m ((c : Thread nD τ).loc main_arg1))) := by
  show StableHlo.after hostOps0 (W0 m ρ c) (Proc.devRef .tc main_v12) = _
  dsimp only [hostOps0]; after_results; rfl

theorem W1_main_v24 (c : Dev nD) :
    W1 m ρ c (Proc.devRef .tc main_v24)
      = mean128 (m ((c : Thread nD τ).loc main_arg0)) (edgeRow0 (m ((c : Thread nD τ).loc main_arg1)))
          (edgeRow1 (m ((c : Thread nD τ).loc main_arg1))) (invDegree (edgeRow1 (m ((c : Thread nD τ).loc main_arg1)))) := by
  show StableHlo.after hostOps0 (W0 m ρ c) (Proc.devRef .tc main_v24) = _
  dsimp only [hostOps0]; after_results_simp <;> rfl

theorem W1_main_v25 (c : Dev nD) :
    W1 m ρ c (Proc.devRef .tc main_v25) = shapeCast _ (m ((c : Thread nD τ).loc main_arg4)) shapeCasts_S64_S1x64 := by
  show StableHlo.after hostOps0 (W0 m ρ c) (Proc.devRef .tc main_v25) = _
  dsimp only [hostOps0]; after_results; rfl

theorem W1_main_arg0 (c : Dev nD) : W1 m ρ c (Proc.devRef .tc main_arg0) = m ((c : Thread nD τ).loc main_arg0) := by
  show StableHlo.after hostOps0 (W0 m ρ c) (Proc.devRef .tc main_arg0) = _
  dsimp only [hostOps0]; after_results
theorem W1_main_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results
theorem W1_main_arg3 (c : Dev nD) : W1 m ρ c (Proc.devRef .tc main_arg3) = m ((c : Thread nD τ).loc main_arg3) := by
  show StableHlo.after hostOps0 (W0 m ρ c) (Proc.devRef .tc main_arg3) = _
  dsimp only [hostOps0]; after_results
theorem W1_main_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results
theorem W1_main_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results
theorem W1_main_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results

/-! ## The second region's entry contents, over what the first region leaves -/

theorem W3_main_v38 (c : Dev nD) :
    W3 m ρ c (Proc.devRef .tc main_v38)
      = mean64 (W2 m ρ c (Proc.devRef .tc main_v26)) (W2 m ρ c (Proc.devRef .tc main_v1)) (W2 m ρ c (Proc.devRef .tc main_v3))
          (W2 m ρ c (Proc.devRef .tc main_v12)) := by
  show StableHlo.after hostOps1 (W2 m ρ c) (Proc.devRef .tc main_v38) = _
  dsimp only [hostOps1]; after_results_simp <;> rfl

theorem W3_main_v39 (c : Dev nD) :
    W3 m ρ c (Proc.devRef .tc main_v39) = shapeCast _ (W2 m ρ c (Proc.devRef .tc main_arg7)) shapeCasts_S3_S1x3 := by
  show StableHlo.after hostOps1 (W2 m ρ c) (Proc.devRef .tc main_v39) = _
  dsimp only [hostOps1]; after_results; rfl

theorem W3_main_v26 (c : Dev nD) : W3 m ρ c (Proc.devRef .tc main_v26) = W2 m ρ c (Proc.devRef .tc main_v26) := by
  show StableHlo.after hostOps1 (W2 m ρ c) (Proc.devRef .tc main_v26) = _
  dsimp only [hostOps1]; after_results
theorem W3_main_arg5 (c : Dev nD) : W3 m ρ c (Proc.devRef .tc main_arg5) = W2 m ρ c (Proc.devRef .tc main_arg5) := by
  show StableHlo.after hostOps1 (W2 m ρ c) (Proc.devRef .tc main_arg5) = _
  dsimp only [hostOps1]; after_results
theorem W3_main_arg6 (c : Dev nD) : W3 m ρ c (Proc.devRef .tc main_arg6) = W2 m ρ c (Proc.devRef .tc main_arg6) := by
  show StableHlo.after hostOps1 (W2 m ρ c) (Proc.devRef .tc main_arg6) = _
  dsimp only [hostOps1]; after_results

/-- The first region writes its output only: every other buffer leaves it as it entered. -/
theorem W2_main_v1 (c : Dev nD) : W2 m ρ c (Proc.devRef .tc main_v1) = W1 m ρ c (Proc.devRef .tc main_v1) :=
  W2_of_ne m ρ c main_v1 (by decide)
theorem W2_main_v3 (c : Dev nD) : W2 m ρ c (Proc.devRef .tc main_v3) = W1 m ρ c (Proc.devRef .tc main_v3) :=
  W2_of_ne m ρ c main_v3 (by decide)
theorem W2_main_v12 (c : Dev nD) : W2 m ρ c (Proc.devRef .tc main_v12) = W1 m ρ c (Proc.devRef .tc main_v12) :=
  W2_of_ne m ρ c main_v12 (by decide)
theorem W2_main_arg5 (c : Dev nD) : W2 m ρ c (Proc.devRef .tc main_arg5) = W1 m ρ c (Proc.devRef .tc main_arg5) :=
  W2_of_ne m ρ c main_arg5 (by decide)
theorem W2_main_arg6 (c : Dev nD) : W2 m ρ c (Proc.devRef .tc main_arg6) = W1 m ρ c (Proc.devRef .tc main_arg6) :=
  W2_of_ne m ρ c main_arg6 (by decide)
theorem W2_main_arg7 (c : Dev nD) : W2 m ρ c (Proc.devRef .tc main_arg7) = W1 m ρ c (Proc.devRef .tc main_arg7) :=
  W2_of_ne m ρ c main_arg7 (by decide)

end Cert.KernelIdeal.Aggregate

end
-- ==== Proof.Spec.lean ====
/-
  Two layers of a graph network with mean aggregation, entry by entry over the extended reals.

  A layer takes a matrix of aggregated neighbour features `agg` and a matrix of the nodes' own features `x`
  (both N × K), two weight matrices `wl`, `wr` (K × M) and a bias (M entries). Entry (i, j) of its linear part is

      (Σ_k agg[i,k] · wl[k,j]  +  Σ_k x[i,k] · wr[k,j])  +  b[j]

  with the two products added first and the bias last. The first layer clamps this at zero from below; the second
  takes, along each row, the logarithm of the softmax: with m the row's maximum (folded from -∞),
  (lin - m) - log Σ_j exp (lin_j - m).

  A row of the result depends on row i of `agg` and of `x` only, so a program that computes the layer on blocks of
  rows and one that computes it on the whole matrices give the same entries.

  Also here: multiplying by the reciprocal of a nonzero extended real is dividing by it, at every extended real
  (infinities included), which is how a mean written `sum * (1 / count)` meets one written `sum / count`.
-/
import Idealize.ShloMosaic.PureOps.Ideal
import Idealize.ShloMosaic.PureOps.Ideal.Laws
import Idealize.ShloMosaic.Lib.ValueIdx
import Mathlib.Data.Finset.Fold

noncomputable section

namespace Cert.Sage

open Idealize.ShloMosaic Idealize.ShloMosaic.ValueIdx

variable {N K M : ℕ}

/-- Entry (i, j) of `agg · wl + x · wr + b`. -/
def lin (agg x : (⟨2, ![N, K]⟩ : Shape).Idx → EReal) (wl wr : (⟨2, ![K, M]⟩ : Shape).Idx → EReal)
    (b : Fin M → EReal) (i : Fin N) (j : Fin M) : EReal :=
  (∑ k : Fin K, agg (ix2 i k) * wl (ix2 k j) + ∑ k : Fin K, x (ix2 i k) * wr (ix2 k j)) + b j

/-- The first layer: the linear part clamped at zero from below. -/
def reluLayer (agg x : (⟨2, ![N, K]⟩ : Shape).Idx → EReal) (wl wr : (⟨2, ![K, M]⟩ : Shape).Idx → EReal)
    (b : Fin M → EReal) : (⟨2, ![N, M]⟩ : Shape).Idx → EReal :=
  fun i => max (lin agg x wl wr b (i 0) (i 1)) 0

/-- The largest entry of row i of the linear part, folded from -∞ (the f32 pattern of -∞ is kept as a pattern: both
    programs start their fold from the same word, so it is never evaluated). -/
def rowMax (agg x : (⟨2, ![N, K]⟩ : Shape).Idx → EReal) (wl wr : (⟨2, ![K, M]⟩ : Shape).Idx → EReal)
    (b : Fin M → EReal) (i : Fin N) : EReal :=
  (Finset.univ : Finset (Fin M)).fold max (Ideal.ofBits .f32 0xFF800000#32) (fun j => lin agg x wl wr b i j)

/-- The second layer: along each row the logarithm of the softmax of the linear part, shifted by the row's maximum. -/
def logSoftmaxLayer (agg x : (⟨2, ![N, K]⟩ : Shape).Idx → EReal) (wl wr : (⟨2, ![K, M]⟩ : Shape).Idx → EReal)
    (b : Fin M → EReal) : (⟨2, ![N, M]⟩ : Shape).Idx → EReal :=
  fun i => (lin agg x wl wr b (i 0) (i 1) - rowMax agg x wl wr b (i 0))
    - Ideal.log (∑ j : Fin M, Ideal.exp (lin agg x wl wr b (i 0) j - rowMax agg x wl wr b (i 0)))

/-- Folding `max` from a value gives at least that value: taking the maximum with the starting value once more
    changes nothing. -/
theorem max_fold_self {ι : Type*} (s : Finset ι) (a : EReal) (f : ι → EReal) :
    max a (s.fold max a f) = s.fold max a f :=
  max_eq_right ((Finset.le_fold_max a).mpr (Or.inl le_rfl))

/-- The product with the reciprocal of a nonzero extended real is the quotient by it. -/
theorem mul_recip_eq_div (s c : EReal) (hc : c ≠ 0) : s * Ideal.div 1 c = Ideal.div s c := by
  rw [Ideal.div, if_neg hc, Ideal.div, if_neg hc, one_mul]

/-- The f32 pattern of one is the real number one. -/
theorem ofBits_one_f32 : Ideal.ofBits .f32 0x3F800000#32 = 1 := by
  simp [Ideal.ofBits, Ideal.ieee, -EReal.coe_mul]; norm_num

/-- A count clamped at one from below is not zero. -/
theorem max_one_ne_zero (a : EReal) : max a (Ideal.ofBits .f32 0x3F800000#32) ≠ 0 := by
  rw [ofBits_one_f32]
  exact (lt_of_lt_of_le zero_lt_one (le_max_right a 1)).ne'

end Cert.Sage

end
-- ==== Proof.Region0.lean ====
/-
  The first layer's region, as one function of the arrays it is entered with.

  The region runs over twenty grid points. Point t reads rows 5000·t … 5000·t + 4999 of the aggregated neighbour
  features and of the nodes' own features (both 100000 × 128), the two whole 128 × 64 weight matrices and the whole
  1 × 64 bias row, and writes rows 5000·t … 5000·t + 4999 of the 100000 × 64 output. On its block the body stores

      max((Σ_k agg[p,k] · Wl[k,q]  +  Σ_k x[p,k] · Wr[k,q])  +  b[0,q], 0)

  at entry (p, q): the two matrix products accumulate into zero, the narrowing of their operands is the identity on
  extended reals, the bias row is spread over the rows, and the clamp is the maximum with the real number zero.

  Row p of block t is row 5000·t + p of the arrays, and a row of the layer depends on that row of the two feature
  matrices only, so what point t writes back is block t of the layer computed on the whole arrays. The twenty blocks
  tile the output (row r lies in block r / 5000), so after the last point the output array is the layer of the whole
  arrays: `relu_region`.
-/
import proofs.«135917_j4569845203115_1_alg».proof.Proof.Gen.KernelIdeal.Frame
import proofs.«135917_j4569845203115_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Cert.Sage
open Idealize.ShloMosaic Idealize.ShloMosaic.ValueIdx Idealize.ShloMosaic.TcCoe Idealize.SL.Sem
open Idealize.ShloMosaic.Pipeline (Dat)

/-! ## The product of a row block with a weight matrix, entry by entry

The matrix product contracts the block's second axis with the weights' first axis. At output entry (p, q) and
contraction position k the left factor is read at (p, k) and the right factor at (k, q): one lemma per axis. -/

theorem lhs_row (j : S5000x64.Idx) (k : dot_S5000x128_S128x64_S5000x64_1_0_0_1_n_n.contr.Idx) :
    (dot_S5000x128_S128x64_S5000x64_1_0_0_1_n_n.lhsIdx j k 0).val = (j 0).val := rfl

theorem lhs_contr (j : S5000x64.Idx) (k : dot_S5000x128_S128x64_S5000x64_1_0_0_1_n_n.contr.Idx) :
    (dot_S5000x128_S128x64_S5000x64_1_0_0_1_n_n.lhsIdx j k 1).val = (k ⟨0, by decide⟩).val :=
  dot_S5000x128_S128x64_S5000x64_1_0_0_1_n_n.lhsIdx_val_of_single rfl j k

theorem rhs_contr (j : S5000x64.Idx) (k : dot_S5000x128_S128x64_S5000x64_1_0_0_1_n_n.contr.Idx) :
    (dot_S5000x128_S128x64_S5000x64_1_0_0_1_n_n.rhsIdx j k 0).val = (k ⟨0, by decide⟩).val :=
  dot_S5000x128_S128x64_S5000x64_1_0_0_1_n_n.rhsIdx_val_of_single rfl j k

theorem rhs_col (j : S5000x64.Idx) (k : dot_S5000x128_S128x64_S5000x64_1_0_0_1_n_n.contr.Idx) :
    (dot_S5000x128_S128x64_S5000x64_1_0_0_1_n_n.rhsIdx j k 1).val = (j 1).val := rfl

/-- Accumulated into zero, the product of a [5000,128] block with a [128,64] matrix has at (p, q) the sum over k of
    block[p,k] · matrix[k,q]. -/
theorem matmul_at (a : FVec Ideal S5000x128 .bf16) (w : FVec Ideal S128x64 .bf16) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  refine (Ideal.matmul_constant_zero_apply dot_S5000x128_S128x64_S5000x64_1_0_0_1_n_n none a w (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k := by
    funext d; apply Fin.ext
    match d with
    | ⟨0, _⟩ => exact lhs_row _ _
    | ⟨1, _⟩ => exact (lhs_contr _ _).trans hk
  have er : dot_S5000x128_S128x64_S5000x64_1_0_0_1_n_n.rhsIdx (ix2 p q)
      ((contrEquiv1 dot_S5000x128_S128x64_S5000x64_1_0_0_1_n_n 128 rfl rfl).symm k) = ix2 k q := by
    funext d; apply Fin.ext
    match d with
    | ⟨0, _⟩ => exact (rhs_contr _ _).trans hk
    | ⟨1, _⟩ => exact rhs_col _ _
  rw [el, er]

/-! ## The body's stored value, entry by entry -/

/-- The bias row spread over the block's rows reads, at (p, q), the row's entry q. -/
theorem bias_at (x4 : Vec Ideal S1x64 .f32) (p : Fin 5000) (q : Fin 64) :
    broadcastTo S5000x64 (shapeCast S1x64 x4 shapeCasts_S1x64_S1x64) broadcasts_S1x64_S5000x64 (ix2 p q) = x4 (ix2 0 q) := by
  rw [shapeCast_self]
  refine broadcastTo_apply x4 broadcasts_S1x64_S5000x64 (ix2 p q) (ix2 0 q) fun a => ?_
  match a with
  | ⟨0, _⟩ => rfl
  | ⟨1, _⟩ => rfl

/-- Entry (p, q) of what the body stores: the two products added, the bias row added, clamped at zero from below.
    The narrowing of the operands changes no extended real, and the two accumulators start at zero. -/
theorem payload_at (x0 x1 : Vec Ideal S5000x128 .f32) (x2 x3 : Vec Ideal S128x64 .f32) (x4 : Vec Ideal S1x64 .f32)
    (p : Fin 5000) (q : Fin 64) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix2 0 q)) 0 := by
  unfold k0_pay1
  have e0 : shapeCast S5000x128 x0 shapeCasts_S5000x128_S5000x128 = x0 := shapeCast_self x0 _
  have h1 := matmul_at (truncf .bf16 (shapeCast S5000x128 x0 shapeCasts_S5000x128_S5000x128) bitsLt_bf16_f32)
    (truncf .bf16 x2 bitsLt_bf16_f32) p q
  rw [e0] at h1
  have h2 := matmul_at (truncf .bf16 x1 bitsLt_bf16_f32) (truncf .bf16 x3 bitsLt_bf16_f32) p q
  have h3 := bias_at x4 p q
  rw [e0]
  exact (congrArg₂ max (congrArg₂ (· + ·) (congrArg₂ (· + ·) h1 h2) h3) Ideal.ofBits_zero_f32)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The layer on the whole arrays the region is entered with. -/
abbrev layer (c : Dev nD) : S100000x64.Idx → EReal :=
  reluLayer (V c main_v24) (V c main_arg0) (V c main_arg2) (V c main_arg3) (fun j => V c main_v25 (ix2 0 j))

/-- The six windows' block indices at grid point t: the two row-blocked inputs and the output sit at row block t,
    the two weight matrices and the bias row at block (0, 0). Decided over the twenty points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregate's block at point t is row 5000·t + p of the aggregate. -/
theorem agg_block (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v24 : S100000x128.Idx → EReal) i := by
  obtain ⟨e0, e1, -⟩ := block_indices t
  unfold iblk0
  rw [View.read_apply]
  show V c main_v24 (((cfg0.win 0).blk t).view.emb y) = V c main_v24 i
  refine congrArg (V c main_v24) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Row p of the features' block at point t is row 5000·t + p of the features. -/
theorem x_block (c : Dev nD) (t : Fin cfg0.N) (y : S5000x128.Idx) (i : S100000x128.Idx)
    (h0 : (i 0).val = 5000 * t.val + (y 0).val) (h1 : (i 1).val = (y 1).val) :
    (iblk0 V c 1 t : Vec Ideal S5000x128 .f32) y = (V c main_arg0 : S100000x128.Idx → EReal) i := by
  obtain ⟨-, -, e0, e1, -⟩ := block_indices t
  unfold iblk0
  rw [View.read_apply]
  show V c main_arg0 (((cfg0.win 1).blk t).view.emb y) = V c main_arg0 i
  refine congrArg (V c main_arg0) (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The first weight matrix's block at every point is the whole matrix. -/
theorem wl_block (c : Dev nD) (t : Fin cfg0.N) (y : S128x64.Idx) :
    (iblk0 V c 2 t : Vec Ideal S128x64 .f32) y = (V c main_arg2 : S128x64.Idx → EReal) y := by
  obtain ⟨-, -, -, -, e0, e1, -⟩ := block_indices t
  unfold iblk0
  rw [View.read_apply]
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The second weight matrix's block at every point is the whole matrix. -/
theorem wr_block (c : Dev nD) (t : Fin cfg0.N) (y : S128x64.Idx) :
    (iblk0 V c 3 t : Vec Ideal S128x64 .f32) y = (V c main_arg3 : S128x64.Idx → EReal) y := by
  obtain ⟨-, -, -, -, -, -, e0, e1, -⟩ := block_indices t
  unfold iblk0
  rw [View.read_apply]
  show V c main_arg3 (((cfg0.win 3).blk t).view.emb y) = V c main_arg3 y
  refine congrArg (V c main_arg3) (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The bias row's block at every point is the whole row. -/
theorem bias_block (c : Dev nD) (t : Fin cfg0.N) (y : S1x64.Idx) :
    (iblk0 V c 4 t : Vec Ideal S1x64 .f32) y = (V c main_v25 : S1x64.Idx → EReal) y := by
  obtain ⟨-, -, -, -, -, -, -, -, e0, e1, -⟩ := block_indices t
  unfold iblk0
  rw [View.read_apply]
  show V c main_v25 (((cfg0.win 4).blk t).view.emb y) = V c main_v25 y
  refine congrArg (V c main_v25) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- An entry of the layer, written out. -/
theorem layer_entry {N K M : ℕ} (agg x : (⟨2, ![N, K]⟩ : Shape).Idx → EReal) (wl wr : (⟨2, ![K, M]⟩ : Shape).Idx → EReal)
    (b : Fin M → EReal) (r : Fin N) (q : Fin M) :
    reluLayer agg x wl wr b (ix2 r q)
      = max ((∑ k : Fin K, agg (ix2 r k) * wl (ix2 k q) + ∑ k : Fin K, x (ix2 r k) * wr (ix2 k q)) + b q) 0 := rfl

/-- Entry (p, q) of what the body stores at point t is entry (5000·t + p, q) of the layer on the whole arrays: a row of
    the layer reads the same row of the aggregate and of the features, and all of the weights and the bias. -/
theorem block_entry (c : Dev nD) (t : Fin cfg0.N) (p : Fin 5000) (q : Fin 64) (r : Fin 100000)
    (hr : r.val = 5000 * t.val + p.val) :
    k0_pay1 (F := Ideal) (iblk0 V c 0 t) (iblk0 V c 1 t) (iblk0 V c 2 t) (iblk0 V c 3 t) (iblk0 V c 4 t) (ix2 p q)
      = layer V c (ix2 r q) := by
  have hL := payload_at (iblk0 V c 0 t) (iblk0 V c 1 t) (iblk0 V c 2 t) (iblk0 V c 3 t) (iblk0 V c 4 t) p q
  have hR := layer_entry (V c main_v24) (V c main_arg0) (V c main_arg2) (V c main_arg3) (fun j => V c main_v25 (ix2 0 j)) r q
  refine hL.trans (Eq.trans ?_ hR.symm)
  exact congrArg₂ max (congrArg₂ (· + ·) (congrArg₂ (· + ·)
      (Finset.sum_congr rfl fun k _ => congrArg₂ (· * ·) (agg_block V c t (ix2 p k) (ix2 r k) hr rfl) (wl_block V c t (ix2 k q)))
      (Finset.sum_congr rfl fun k _ => congrArg₂ (· * ·) (x_block V c t (ix2 p k) (ix2 r k) hr rfl) (wr_block V c t (ix2 k q))))
      (bias_block V c t (ix2 0 q))) rfl

/-- The same at any index of the block and the index of the array it sits under. -/
theorem block_entry_idx (c : Dev nD) (t : Fin cfg0.N) (y : S5000x64.Idx) (i : S100000x64.Idx)
    (h0 : (i 0).val = 5000 * t.val + (y 0).val) (h1 : (i 1).val = (y 1).val) :
    k0_pay1 (F := Ideal) (iblk0 V c 0 t) (iblk0 V c 1 t) (iblk0 V c 2 t) (iblk0 V c 3 t) (iblk0 V c 4 t) y = layer V c i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext h1
  exact block_entry V c t p s r h0

/-- What point t writes back is block t of the layer on the whole arrays. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨-, -, -, -, -, -, -, -, -, -, e0, e1⟩ := block_indices t
  funext j
  show k0_pay1 (F := Ideal) (iblk0 V c 0 t) (iblk0 V c 1 t) (iblk0 V c 2 t) (iblk0 V c 3 t) (iblk0 V c 4 t)
      (win0_5.xinj (grid0.coords t) j) = layer V c (((cfg0.win 5).blk t).view.emb j)
  refine block_entry_idx V c t _ _ ?_ ?_
  · show win0_5.index t (0 : Fin 2) * 5000 + 1 * (j 0).val = 5000 * t.val + (j 0).val; omega
  · show win0_5.index t (1 : Fin 2) * 64 + 1 * (j 1).val = (j 1).val; omega

/-- An index of the output array lies in point t's block iff, on each axis, it lies in the block's range. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Row r of the output lies in the block of point r / 5000: the twenty blocks tile the array. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk]
  obtain ⟨-, -, -, -, -, -, -, -, -, -, e0, e1⟩ := block_indices ⟨(i 0).val / 5000, by rw [hN]; omega⟩
  intro a
  match a with
  | ⟨0, _⟩ =>
    show win0_5.index ⟨(i 0).val / 5000, _⟩ (0 : Fin 2) * 5000 ≤ (i 0).val
      ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 64 ≤ (i 1).val
      ∧ (i 1).val < win0_5.index ⟨(i 0).val / 5000, _⟩ (1 : Fin 2) * 64 + 64
    rw [e1]; omega

/-! ## The region's value -/

/-- After the twenty points the output array holds the layer of the arrays the region was entered with: entry (i, j) is
    max((Σ_k agg[i,k]·Wl[k,j] + Σ_k x[i,k]·Wr[k,j]) + b[0,j], 0). -/
theorem relu_region (c : Dev nD) :
    (dat0 (F := Ideal) V c).arrAt 5 cfg0.N
      = Cert.Sage.reluLayer (V c main_v24) (V c main_arg0) (V c main_arg2) (V c main_arg3) (fun j => V c main_v25 (ix2 0 j)) :=
  (dat0 (F := Ideal) V c).arrAt_eq_of_cover 5 (layer V c) (fun t _ => flushed_eq V c t) cover

end Cert.KernelIdeal.Region0

end
-- ==== Proof.Region1.lean ====
/-
  The second Pallas region: the logarithm of the softmax of a linear layer, on twenty blocks of 5000 rows.

  Each grid point t takes rows 5000 t … 5000 t + 4999 of the aggregate and of the hidden features (64 columns each),
  the two 64 × 3 weight matrices and the 1 × 3 bias row, and writes rows 5000 t … 5000 t + 4999 of the 100000 × 3
  output. On a block the body forms the linear part

      lin[p,q] = (Σ_k agg[p,k] · Wl[k,q]  +  Σ_k h[p,k] · Wr[k,q])  +  b[0,q],

  the row maximum m[p] (the fold of max over the three columns, from the f32 pattern of -∞), and stores
  (lin[p,q] - m[p]) - log Σ_q' exp (lin[p,q'] - m[p]). Over the extended reals the narrowing of the operands to bf16
  is the identity and each product accumulates into zero, so the stored block is the layer of the block's operands.

  First the payload read at an entry (p, q): the two products, the unit axis kept by the two row reductions (a vector of
  5000 entries viewed as a column and spread over the three columns), the row maximum and the row sum, stage by stage.
  Then the step from blocks to the array: an entry of the layer in row i reads row i of the two feature matrices
  only; row p of block t of a feature matrix is its row 5000 t + p, the weights' and the bias's one block is the whole
  array; so what point t writes back is block t of the layer of the whole arrays; the twenty blocks cover the output
  (row r lies in block r / 5000), hence the output array after the region is that layer.
-/
import proofs.«135917_j4569845203115_1_alg».proof.Proof.Gen.KernelIdeal.Frame
import proofs.«135917_j4569845203115_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat)

/-! ## The two products of a block: which entries of the operands meet at an output entry -/

theorem lhs_dot_0 (i : S5000x3.Idx) (q : dot_S5000x64_S64x3_S5000x3_1_0_0_1_n_n.contr.Idx) :
    (dot_S5000x64_S64x3_S5000x3_1_0_0_1_n_n.lhsIdx i q 0).val = (i 0).val := by
  unfold DotDims.lhsIdx
  rw [dif_neg (show ¬(0 : Fin S5000x64.rank) ∈ dot_S5000x64_S64x3_S5000x3_1_0_0_1_n_n.lhsBatch by decide), dif_pos (show (0 : Fin S5000x64.rank) ∈ dot_S5000x64_S64x3_S5000x3_1_0_0_1_n_n.lhsNonContracting by decide)]
  rfl
theorem lhs_dot_1 (i : S5000x3.Idx) (q : dot_S5000x64_S64x3_S5000x3_1_0_0_1_n_n.contr.Idx) :
    (dot_S5000x64_S64x3_S5000x3_1_0_0_1_n_n.lhsIdx i q 1).val = (q ⟨0, by decide⟩).val :=
  dot_S5000x64_S64x3_S5000x3_1_0_0_1_n_n.lhsIdx_val_of_single rfl i q
theorem rhs_dot_0 (i : S5000x3.Idx) (q : dot_S5000x64_S64x3_S5000x3_1_0_0_1_n_n.contr.Idx) :
    (dot_S5000x64_S64x3_S5000x3_1_0_0_1_n_n.rhsIdx i q 0).val = (q ⟨0, by decide⟩).val :=
  dot_S5000x64_S64x3_S5000x3_1_0_0_1_n_n.rhsIdx_val_of_single rfl i q
theorem rhs_dot_1 (i : S5000x3.Idx) (q : dot_S5000x64_S64x3_S5000x3_1_0_0_1_n_n.contr.Idx) :
    (dot_S5000x64_S64x3_S5000x3_1_0_0_1_n_n.rhsIdx i q 1).val = (i 1).val := by
  unfold DotDims.rhsIdx
  rw [dif_neg (show ¬(1 : Fin S64x3.rank) ∈ dot_S5000x64_S64x3_S5000x3_1_0_0_1_n_n.rhsBatch by decide), dif_pos (show (1 : Fin S64x3.rank) ∈ dot_S5000x64_S64x3_S5000x3_1_0_0_1_n_n.rhsNonContracting by decide)]
  rfl

/-- A block's product accumulated into zero: entry (p, q) is the sum over k of a[p,k] · w[k,q]. -/
theorem matmul_apply_ix (a : FVec Ideal S5000x64 .bf16) (w : FVec Ideal S64x3 .bf16) (p : Fin 5000) (q : Fin 3) :
    matmul dot_S5000x64_S64x3_S5000x3_1_0_0_1_n_n none a w (constant (F := Ideal) S5000x3 .f32 0x00000000#32) (ix2 p q)
      = ∑ k : Fin 64, a (ix2 p k) * w (ix2 k q) := by
  simp only [matmul]
  rw [Ideal.matmul_constant_zero_apply, ← Equiv.sum_comp (contrEquiv1 dot_S5000x64_S64x3_S5000x3_1_0_0_1_n_n 64 rfl rfl).symm]
  refine Finset.sum_congr rfl fun k _ => ?_
  have hk := contrEquiv1_symm_val dot_S5000x64_S64x3_S5000x3_1_0_0_1_n_n 64 rfl rfl k
  have el : dot_S5000x64_S64x3_S5000x3_1_0_0_1_n_n.lhsIdx (ix2 p q) ((contrEquiv1 dot_S5000x64_S64x3_S5000x3_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x3_S5000x3_1_0_0_1_n_n.rhsIdx (ix2 p q) ((contrEquiv1 dot_S5000x64_S64x3_S5000x3_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## Keeping the reduced axis as a unit axis: a column [5000] → [5000,1] → [5000,3] -/

/-- A vector of 5000 entries viewed as a column reads, at (p, ·), its entry p. -/
theorem col_cast_apply {α : Type} (v : S5000.Idx → α) (p : Fin 5000) (z : Fin 1) :
    shapeCast S5000x1 v shapeCasts_S5000_S5000x1 (ix2 p z) = v (ix1 p) :=
  shapeCast_apply v shapeCasts_S5000_S5000x1 _ _ (by
    have hz0 : z.val = 0 := by omega
    rw [Shape.rowMajor_val_one, Shape.rowMajor_val_two]
    show p.val = p.val * 1 + z.val
    rw [hz0, Nat.mul_one, Nat.add_zero])

/-- A column spread over three columns reads, at (p, q), the column's entry p. -/
theorem col_bcast_apply {α : Type} (u : S5000x1.Idx → α) (p : Fin 5000) (q : Fin 3) :
    broadcastTo S5000x3 u broadcasts_S5000x1_S5000x3 (ix2 p q) = u (ix2 p (0 : Fin 1)) := by
  refine broadcastTo_apply u broadcasts_S5000x1_S5000x3 (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

/-! ## The two reductions along a row of three entries -/

/-- The row maximum: the fold of max from the accumulator's value over the row's three entries. -/
theorem rowmax_apply (src : FVec Ideal S5000x3 .f32) (p : Fin 5000) :
    multiReduction (F := Ideal) .maximumf [1] S5000 src 0xFF800000#32 reduces_S5000x3_S5000 (.inl rfl) rfl (ix1 p)
      = (Finset.univ : Finset (Fin 3)).fold max (Ideal.ofBits .f32 0xFF800000#32) (fun j => src (ix2 p j)) := by
  refine (Ideal.multiReduction_maximumf_single src 0xFF800000#32 reduces_S5000x3_S5000 (.inl rfl) rfl (ix1 p)).trans ?_
  have e : (src ∘ reduces_S5000x3_S5000.lift (ix1 p)) = fun j : Fin 3 => src (ix2 p j) := by
    funext j
    show src (reduces_S5000x3_S5000.lift (ix1 p) j) = src (ix2 p j)
    congr 1
    funext a
    apply Fin.ext
    match a with
    | ⟨0, _⟩ => rfl
    | ⟨1, _⟩ => rfl
  rw [e]
  rfl

/-- The row sum: the sum of the row's three entries. -/
theorem rowsum_apply (src : FVec Ideal S5000x3 .f32) (p : Fin 5000) :
    multiReduction (F := Ideal) .add [1] S5000 src 0x00000000#32 reduces_S5000x3_S5000 (.inl rfl) rfl (ix1 p)
      = ∑ j : Fin 3, src (ix2 p j) := by
  refine (Ideal.multiReduction_add_single src 0x00000000#32 reduces_S5000x3_S5000 (.inl rfl) rfl (ix1 p)).trans ?_
  refine Finset.sum_congr rfl fun j _ => ?_
  show src (reduces_S5000x3_S5000.lift (ix1 p) j) = src (ix2 p j)
  congr 1
  funext a
  apply Fin.ext
  match a with
  | ⟨0, _⟩ => rfl
  | ⟨1, _⟩ => rfl

/-! ## The block's payload, stage by stage -/

/-- The linear part of a block: the two products added, then the bias row spread over the block's rows. -/
def linV (x0 x1 : Vec Ideal S5000x64 .f32) (x2 x3 : Vec Ideal S64x3 .f32) (x4 : Vec Ideal S1x3 .f32) : FVec Ideal S5000x3 .f32 :=
  addf (addf
      (matmul dot_S5000x64_S64x3_S5000x3_1_0_0_1_n_n none
        (truncf .bf16 (shapeCast S5000x64 x0 shapeCasts_S5000x64_S5000x64) bitsLt_bf16_f32) (truncf .bf16 x2 bitsLt_bf16_f32)
        (constant (F := Ideal) S5000x3 .f32 0x00000000#32))
      (matmul dot_S5000x64_S64x3_S5000x3_1_0_0_1_n_n none
        (truncf .bf16 (shapeCast S5000x64 x1 shapeCasts_S5000x64_S5000x64) bitsLt_bf16_f32) (truncf .bf16 x3 bitsLt_bf16_f32)
        (constant (F := Ideal) S5000x3 .f32 0x00000000#32)))
    (broadcastTo S5000x3 (shapeCast S1x3 x4 shapeCasts_S1x3_S1x3) broadcasts_S1x3_S5000x3)

/-- Each row's maximum of the linear part. -/
def maxV (x0 x1 : Vec Ideal S5000x64 .f32) (x2 x3 : Vec Ideal S64x3 .f32) (x4 : Vec Ideal S1x3 .f32) : FVec Ideal S5000 .f32 :=
  multiReduction (F := Ideal) .maximumf [1] S5000 (linV x0 x1 x2 x3 x4) 0xFF800000#32 reduces_S5000x3_S5000 (.inl rfl) rfl

/-- The linear part with its row's maximum taken off. -/
def shiftV (x0 x1 : Vec Ideal S5000x64 .f32) (x2 x3 : Vec Ideal S64x3 .f32) (x4 : Vec Ideal S1x3 .f32) : FVec Ideal S5000x3 .f32 :=
  subf (linV x0 x1 x2 x3 x4)
    (broadcastTo S5000x3 (shapeCast S5000x1 (maxV x0 x1 x2 x3 x4) shapeCasts_S5000_S5000x1) broadcasts_S5000x1_S5000x3)

/-- Each row's sum of the exponentials of the shifted linear part. -/
def sumV (x0 x1 : Vec Ideal S5000x64 .f32) (x2 x3 : Vec Ideal S64x3 .f32) (x4 : Vec Ideal S1x3 .f32) : FVec Ideal S5000 .f32 :=
  multiReduction (F := Ideal) .add [1] S5000 (exp (shiftV x0 x1 x2 x3 x4)) 0x00000000#32 reduces_S5000x3_S5000 (.inl rfl) rfl

/-- The payload is the shifted linear part less the logarithm of its row's sum of exponentials. -/
theorem pay_eq (x0 x1 : Vec Ideal S5000x64 .f32) (x2 x3 : Vec Ideal S64x3 .f32) (x4 : Vec Ideal S1x3 .f32) :
    k1_pay1 (F := Ideal) x0 x1 x2 x3 x4
      = subf (shiftV x0 x1 x2 x3 x4)
          (broadcastTo S5000x3 (log (shapeCast S5000x1 (sumV x0 x1 x2 x3 x4) shapeCasts_S5000_S5000x1)) broadcasts_S5000x1_S5000x3) := rfl

/-- Entry (p, q) of the block's linear part is the layer's linear part of the block's operands. -/
theorem linV_apply (x0 x1 : Vec Ideal S5000x64 .f32) (x2 x3 : Vec Ideal S64x3 .f32) (x4 : Vec Ideal S1x3 .f32) (p : Fin 5000) (q : Fin 3) :
    linV x0 x1 x2 x3 x4 (ix2 p q) = lin x0 x1 x2 x3 (fun j => x4 (ix2 0 j)) p q := by
  unfold linV
  rw [addf_apply, addf_apply, matmul_apply_ix, matmul_apply_ix, broadcastTo_1b_ab_apply]
  simp only [truncf_apply, shapeCast_self]
  rfl

/-- Entry p of the row maxima is the layer's row maximum. -/
theorem maxV_apply (x0 x1 : Vec Ideal S5000x64 .f32) (x2 x3 : Vec Ideal S64x3 .f32) (x4 : Vec Ideal S1x3 .f32) (p : Fin 5000) :
    maxV x0 x1 x2 x3 x4 (ix1 p) = rowMax x0 x1 x2 x3 (fun j => x4 (ix2 0 j)) p := by
  unfold maxV
  rw [rowmax_apply]
  simp only [linV_apply]
  rfl

/-- Entry (p, q) of the shifted linear part. -/
theorem shiftV_apply (x0 x1 : Vec Ideal S5000x64 .f32) (x2 x3 : Vec Ideal S64x3 .f32) (x4 : Vec Ideal S1x3 .f32) (p : Fin 5000) (q : Fin 3) :
    shiftV x0 x1 x2 x3 x4 (ix2 p q)
      = lin x0 x1 x2 x3 (fun j => x4 (ix2 0 j)) p q - rowMax x0 x1 x2 x3 (fun j => x4 (ix2 0 j)) p := by
  unfold shiftV
  rw [subf_apply, col_bcast_apply, col_cast_apply, linV_apply, maxV_apply]

/-- Entry p of the row sums. -/
theorem sumV_apply (x0 x1 : Vec Ideal S5000x64 .f32) (x2 x3 : Vec Ideal S64x3 .f32) (x4 : Vec Ideal S1x3 .f32) (p : Fin 5000) :
    sumV x0 x1 x2 x3 x4 (ix1 p)
      = ∑ j : Fin 3, Ideal.exp (lin x0 x1 x2 x3 (fun j => x4 (ix2 0 j)) p j - rowMax x0 x1 x2 x3 (fun j => x4 (ix2 0 j)) p) := by
  unfold sumV
  rw [rowsum_apply]
  refine Finset.sum_congr rfl fun j _ => ?_
  show Ideal.exp (shiftV x0 x1 x2 x3 x4 (ix2 p j)) = _
  rw [shiftV_apply]

/-- THE PAYLOAD OF A BLOCK is the second layer of the block's operands: rows 0 … 4999 of the aggregate and of the
    hidden features, the two weight matrices, the bias row. -/
theorem pay_layer (x0 x1 : Vec Ideal S5000x64 .f32) (x2 x3 : Vec Ideal S64x3 .f32) (x4 : Vec Ideal S1x3 .f32) :
    k1_pay1 (F := Ideal) x0 x1 x2 x3 x4 = logSoftmaxLayer x0 x1 x2 x3 (fun j => x4 (ix2 0 j)) := by
  funext i
  obtain ⟨p, q, rfl⟩ : ∃ (p : Fin 5000) (q : Fin 3), i = ix2 p q := ⟨i 0, i 1, eq_ix2 i⟩
  rw [pay_eq, subf_apply, col_bcast_apply, shiftV_apply]
  show _ - Ideal.log (shapeCast S5000x1 (sumV x0 x1 x2 x3 x4) shapeCasts_S5000_S5000x1 (ix2 p (0 : Fin 1))) = _
  rw [col_cast_apply, sumV_apply]
  rfl

/-! ## A row of the layer reads one row of each feature matrix -/

/-- The linear part at row i of one pair of matrices and at row i' of another agree when those rows do. -/
theorem lin_congr_rows {N N' K M : ℕ} (A X : (⟨2, ![N, K]⟩ : Shape).Idx → EReal) (A' X' : (⟨2, ![N', K]⟩ : Shape).Idx → EReal)
    (wl wr : (⟨2, ![K, M]⟩ : Shape).Idx → EReal) (b : Fin M → EReal) (i : Fin N) (i' : Fin N')
    (hA : ∀ k, A (ix2 i k) = A' (ix2 i' k)) (hX : ∀ k, X (ix2 i k) = X' (ix2 i' k)) (j : Fin M) :
    lin A X wl wr b i j = lin A' X' wl wr b i' j := by
  unfold lin
  simp only [hA, hX]

/-- So do the row maxima. -/
theorem rowMax_congr_rows {N N' K M : ℕ} (A X : (⟨2, ![N, K]⟩ : Shape).Idx → EReal) (A' X' : (⟨2, ![N', K]⟩ : Shape).Idx → EReal)
    (wl wr : (⟨2, ![K, M]⟩ : Shape).Idx → EReal) (b : Fin M → EReal) (i : Fin N) (i' : Fin N')
    (hA : ∀ k, A (ix2 i k) = A' (ix2 i' k)) (hX : ∀ k, X (ix2 i k) = X' (ix2 i' k)) :
    rowMax A X wl wr b i = rowMax A' X' wl wr b i' := by
  unfold rowMax
  rw [funext fun j => lin_congr_rows A X A' X' wl wr b i i' hA hX j]

/-- And so does the layer's entry in every column. -/
theorem logSoftmaxLayer_congr_rows {N N' K M : ℕ} (A X : (⟨2, ![N, K]⟩ : Shape).Idx → EReal) (A' X' : (⟨2, ![N', K]⟩ : Shape).Idx → EReal)
    (wl wr : (⟨2, ![K, M]⟩ : Shape).Idx → EReal) (b : Fin M → EReal) (i : Fin N) (i' : Fin N')
    (hA : ∀ k, A (ix2 i k) = A' (ix2 i' k)) (hX : ∀ k, X (ix2 i k) = X' (ix2 i' k)) (j : Fin M) :
    logSoftmaxLayer A X wl wr b (ix2 i j) = logSoftmaxLayer A' X' wl wr b (ix2 i' j) := by
  show (lin A X wl wr b i j - rowMax A X wl wr b i) - Ideal.log (∑ j' : Fin M, Ideal.exp (lin A X wl wr b i j' - rowMax A X wl wr b i))
    = (lin A' X' wl wr b i' j - rowMax A' X' wl wr b i') - Ideal.log (∑ j' : Fin M, Ideal.exp (lin A' X' wl wr b i' j' - rowMax A' X' wl wr b i'))
  rw [rowMax_congr_rows A X A' X' wl wr b i i' hA hX]
  simp only [lin_congr_rows A X A' X' wl wr b i i' hA hX]

/-! ## From blocks to the array -/

/-- The whole-buffer rectangle's offsets are zero on both axes. -/
theorem offsets_zero : (![0, 0] : Fin 2 → Nat) = fun _ => 0 := funext fun a => by fin_cases a <;> rfl

/-- The second layer of the arrays the region is entered with. -/
abbrev layer (V : (c : Dev nD) → (b : Ref sig .tc) → Buf (Elt Ideal) ((c : Thread nD τ).loc b)) (c : Dev nD) : S100000x3.Idx → EReal :=
  logSoftmaxLayer (V c main_v38) (V c main_v26) (V c main_arg5) (V c main_arg6) (fun j => V c main_v39 (ix2 0 j))

/-- The printed index maps over the grid: the two feature windows and the output move down one block of rows per
    point and stay in column block 0; the two weight matrices and the bias row stay at their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Block t of the aggregate is its rows 5000 t … 5000 t + 4999. -/
theorem agg_block (c : Dev nD) (t : Fin cfg1.N) (p : Fin 5000) (k : Fin 64) (r : Fin 100000) (hr : r.val = 5000 * t.val + p.val) :
    (iblk1 (F := Ideal) V c 0 t : Vec Ideal S5000x64 .f32) (ix2 p k) = (V c main_v38 : S100000x64.Idx → EReal) (ix2 r k) := by
  obtain ⟨e0, e1, -⟩ := block_indices t
  show V c main_v38 (((cfg1.win 0).blk t).view.emb (ix2 p k)) = _
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- Block t of the hidden features is their rows 5000 t … 5000 t + 4999. -/
theorem hid_block (c : Dev nD) (t : Fin cfg1.N) (p : Fin 5000) (k : Fin 64) (r : Fin 100000) (hr : r.val = 5000 * t.val + p.val) :
    (iblk1 (F := Ideal) V c 1 t : Vec Ideal S5000x64 .f32) (ix2 p k) = (V c main_v26 : S100000x64.Idx → EReal) (ix2 r k) := by
  obtain ⟨-, -, e0, e1, -⟩ := block_indices t
  show V c main_v26 (((cfg1.win 1).blk t).view.emb (ix2 p k)) = _
  congr 1
  funext a
  apply Fin.ext
  match a with
  | ⟨0, _⟩ => show win1_1.index t (0 : Fin 2) * 5000 + 1 * p.val = r.val; omega
  | ⟨1, _⟩ => show win1_1.index t (1 : Fin 2) * 64 + 1 * k.val = k.val; omega

/-- The one block of the first weight matrix is the matrix. -/
theorem wl_block (c : Dev nD) (t : Fin cfg1.N) : (iblk1 (F := Ideal) V c 2 t : Vec Ideal S64x3 .f32) = V c main_arg5 := by
  obtain ⟨-, -, -, -, e0, e1, -⟩ := block_indices t
  funext y
  show V c main_arg5 (((cfg1.win 2).blk t).view.emb y) = V c main_arg5 y
  congr 1
  funext a
  apply Fin.ext
  match a with
  | ⟨0, _⟩ => show win1_2.index t (0 : Fin 2) * 64 + 1 * (y 0).val = (y 0).val; omega
  | ⟨1, _⟩ => show win1_2.index t (1 : Fin 2) * 3 + 1 * (y 1).val = (y 1).val; omega

/-- The one block of the second weight matrix is the matrix. -/
theorem wr_block (c : Dev nD) (t : Fin cfg1.N) : (iblk1 (F := Ideal) V c 3 t : Vec Ideal S64x3 .f32) = V c main_arg6 := by
  obtain ⟨-, -, -, -, -, -, e0, e1, -⟩ := block_indices t
  funext y
  show V c main_arg6 (((cfg1.win 3).blk t).view.emb y) = V c main_arg6 y
  congr 1
  funext a
  apply Fin.ext
  match a with
  | ⟨0, _⟩ => show win1_3.index t (0 : Fin 2) * 64 + 1 * (y 0).val = (y 0).val; omega
  | ⟨1, _⟩ => show win1_3.index t (1 : Fin 2) * 3 + 1 * (y 1).val = (y 1).val; omega

/-- The one block of the bias row is the row. -/
theorem bias_block (c : Dev nD) (t : Fin cfg1.N) : (iblk1 (F := Ideal) V c 4 t : Vec Ideal S1x3 .f32) = V c main_v39 := by
  obtain ⟨-, -, -, -, -, -, -, -, e0, e1, -⟩ := block_indices t
  funext y
  show V c main_v39 (((cfg1.win 4).blk t).view.emb y) = V c main_v39 y
  congr 1
  funext a
  apply Fin.ext
  match a with
  | ⟨0, _⟩ => show win1_4.index t (0 : Fin 2) * 1 + 1 * (y 0).val = (y 0).val; omega
  | ⟨1, _⟩ => show win1_4.index t (1 : Fin 2) * 3 + 1 * (y 1).val = (y 1).val; omega

/-- Entry (p, q) of the output's block t sits in the array at row 5000 t + p, column q. -/
theorem out_emb (t : Fin cfg1.N) (p : Fin 5000) (q : Fin 3) (r : Fin 100000) (hr : r.val = 5000 * t.val + p.val) :
    ((cfg1.win 5).blk t).view.emb (ix2 p q) = (ix2 r q : S100000x3.Idx) := by
  obtain ⟨-, -, -, -, -, -, -, -, -, -, e0, e1⟩ := block_indices t
  funext a
  apply Fin.ext
  match a with
  | ⟨0, _⟩ => show win1_5.index t (0 : Fin 2) * 5000 + 1 * p.val = r.val; omega
  | ⟨1, _⟩ => show win1_5.index t (1 : Fin 2) * 3 + 1 * q.val = q.val; omega

/-- WHAT POINT t WRITES BACK is block t of the second layer of the arrays the region is entered with: the block's
    payload is the layer of the operands' blocks, and row p of block t of a feature matrix is its row 5000 t + p. -/
theorem writeback_eq_layer_block (c : Dev nD) (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero offsets_zero]
  simp only [View.ld_unit_zero (S := S5000x64) offsets_zero, View.ld_unit_zero (S := S64x3) offsets_zero, View.ld_unit_zero (S := S1x3) offsets_zero]
  rw [pay_layer, wl_block, wr_block, bias_block]
  funext y
  obtain ⟨p, q, rfl⟩ : ∃ (p : Fin 5000) (q : Fin 3), y = ix2 p q := ⟨y 0, y 1, eq_ix2 y⟩
  have ht : t.val < 20 := t.isLt
  have hr : 5000 * t.val + p.val < 100000 := by have := p.isLt; omega
  show logSoftmaxLayer (iblk1 (F := Ideal) V c 0 t : Vec Ideal S5000x64 .f32) (iblk1 (F := Ideal) V c 1 t : Vec Ideal S5000x64 .f32)
      (V c main_arg5) (V c main_arg6) (fun j => V c main_v39 (ix2 0 j)) (ix2 p q)
    = layer V c (((cfg1.win 5).blk t).view.emb (ix2 p q))
  rw [out_emb t p q ⟨5000 * t.val + p.val, hr⟩ rfl]
  exact logSoftmaxLayer_congr_rows _ _ _ _ _ _ _ p ⟨5000 * t.val + p.val, hr⟩
    (fun k => agg_block V c t p k _ rfl) (fun k => hid_block V c t p k _ rfl) q

/-- An index of the output array is in point t's block iff each coordinate is in the block's range on its axis. -/
theorem mem_row_block (t : Fin cfg1.N) (i : S100000x3.Idx) :
    i ∈ ((cfg1.win 5).blk t).view.set
      ↔ ∀ a : Fin 2, win1_5.index t a * S5000x3.size a ≤ (i a).val ∧ (i a).val < win1_5.index t a * S5000x3.size a + S5000x3.size a := by
  show i ∈ ((View.whole main_v40).slice (win1_5.rect t)).set ↔ _
  rw [View.set_slice_whole, Rect.mem_set_unit]
  exact Iff.rfl

/-- The blocks cover the output array: row r is in the block of point r / 5000. -/
theorem rows_covered (i : S100000x3.Idx) : ∃ t : Fin cfg1.N, (cfg1.win 5).flush t = true ∧ i ∈ ((cfg1.win 5).blk t).view.set := by
  have hi0 : (i 0).val < 100000 := (i 0).isLt
  have hi1 : (i 1).val < 3 := (i 1).isLt
  have hlt : (i 0).val / 5000 < 20 := by omega
  refine ⟨⟨(i 0).val / 5000, hlt⟩, flush1_5 _, ?_⟩
  rw [mem_row_block]
  obtain ⟨-, -, -, -, -, -, -, -, -, -, e0, e1⟩ := block_indices ⟨(i 0).val / 5000, hlt⟩
  have e0' : win1_5.index ⟨(i 0).val / 5000, hlt⟩ (0 : Fin 2) = (i 0).val / 5000 := e0
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    omega
  | ⟨1, _⟩ =>
    show win1_5.index ⟨(i 0).val / 5000, hlt⟩ (1 : Fin 2) * 3 ≤ (i 1).val
      ∧ (i 1).val < win1_5.index ⟨(i 0).val / 5000, hlt⟩ (1 : Fin 2) * 3 + 3
    omega

/-- THE OUTPUT ARRAY AFTER THE REGION is the second layer, entry by entry, of the arrays the region is entered with:
    the aggregate, the hidden features, the two weight matrices and the bias row. -/
theorem logsoftmax_region (c : Dev nD) :
    (dat1 (F := Ideal) V c).arrAt 5 cfg1.N
      = logSoftmaxLayer (V c main_v38) (V c main_v26) (V c main_arg5) (V c main_arg6) (fun j => V c main_v39 (ix2 0 j)) :=
  (dat1 (F := Ideal) V c).arrAt_eq_of_cover 5 (layer V c) (fun t _ => writeback_eq_layer_block V c t) rows_covered

end Cert.KernelIdeal.Region1

end
-- ==== Proof.KernelValue.lean ====
/-
  The kernel program's result as one function of its arguments.

  The first region leaves, in its output array, the first layer of the network applied to the neighbour mean of the input
  features and to the features themselves; the second region leaves the second layer applied to the neighbour mean of the
  first region's output and to that output. The means are the host's gather / scatter-add terms, kept closed. A bias enters
  a region laid out as one row: entry (0, j) of that row is entry j of the bias vector.
-/
import proofs.«135917_j4569845203115_1_alg».proof.Proof.KernelHost
import proofs.«135917_j4569845203115_1_alg».proof.Proof.Region0
import proofs.«135917_j4569845203115_1_alg».proof.Proof.Region1
import proofs.«135917_j4569845203115_1_alg».proof.Proof.Spec
import Idealize.ShloMosaic.Lib.Pipeline.Value

set_option maxRecDepth 16384

noncomputable section

namespace Cert.KernelIdeal.Result

open Cert.KernelIdeal Cert.KernelIdeal.Gen Cert.KernelIdeal.Aggregate Cert.Sage
open Idealize.ShloMosaic Idealize.ShloMosaic.TcCoe Idealize.ShloMosaic.ValueIdx Idealize.SL.Sem

/-- A vector of n entries reshaped to one row of n: entry (0, j) of the row is entry j of the vector. -/
theorem reshape_row {α : Type} {n : ℕ} (b : (⟨1, ![n]⟩ : Shape).Idx → α)
    (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The hidden features: the first layer on the neighbour mean of the input features. -/
def hidden (x : (⟨S100000x128, .f32⟩ : BufTy).Contents (Elt Ideal)) (e : (⟨S2x600000, .i32⟩ : BufTy).Contents (Elt Ideal))
    (wl wr : (⟨S128x64, .f32⟩ : BufTy).Contents (Elt Ideal)) (b : (⟨S64, .f32⟩ : BufTy).Contents (Elt Ideal)) :
    (⟨S100000x64, .f32⟩ : BufTy).Contents (Elt Ideal) :=
  reluLayer (mean128 x (edgeRow0 e) (edgeRow1 e) (invDegree (edgeRow1 e))) x wl wr (fun j => b (ix1 j))

/-- The network: the second layer on the neighbour mean of the hidden features. -/
def net (x : (⟨S100000x128, .f32⟩ : BufTy).Contents (Elt Ideal)) (e : (⟨S2x600000, .i32⟩ : BufTy).Contents (Elt Ideal))
    (wl1 wr1 : (⟨S128x64, .f32⟩ : BufTy).Contents (Elt Ideal)) (b1 : (⟨S64, .f32⟩ : BufTy).Contents (Elt Ideal))
    (wl2 wr2 : (⟨S64x3, .f32⟩ : BufTy).Contents (Elt Ideal)) (b2 : (⟨S3, .f32⟩ : BufTy).Contents (Elt Ideal)) :
    (⟨S100000x3, .f32⟩ : BufTy).Contents (Elt Ideal) :=
  logSoftmaxLayer (mean64 (hidden x e wl1 wr1 b1) (edgeRow0 e) (edgeRow1 e) (invDegree (edgeRow1 e)))
    (hidden x e wl1 wr1 b1) wl2 wr2 (fun j => b2 (ix1 j))

variable (m : (ℓ : Loc nD τ sig) → Buf (Elt Ideal) ℓ) (ρ : Dev nD → PrngReg)

/-- What the first region leaves in its output array. -/
theorem first_region (c : Dev nD) :
    W2 m ρ c (Proc.devRef .tc main_v26)
      = hidden (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ?_
  rw [Cert.KernelIdeal.Region0.relu_region (V1 m ρ) c]
  show reluLayer (W1 m ρ c (Proc.devRef .tc main_v24)) (W1 m ρ c (Proc.devRef .tc main_arg0)) (W1 m ρ c (Proc.devRef .tc main_arg2))
      (W1 m ρ c (Proc.devRef .tc main_arg3)) (fun j => W1 m ρ c (Proc.devRef .tc main_v25) (ix2 0 j)) = _
  rw [W1_main_v24, W1_main_arg0, W1_main_arg2, W1_main_arg3, W1_main_v25]
  unfold hidden
  refine congrArg _ (funext fun j => ?_)
  exact reshape_row _ _ j

/-- What the second region leaves in the result array. -/
theorem result (c : Dev nD) :
    W4 m ρ c (Proc.devRef .tc main_v40)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ?_
  rw [Cert.KernelIdeal.Region1.logsoftmax_region (V3 m ρ) c]
  show logSoftmaxLayer (W3 m ρ c (Proc.devRef .tc main_v38)) (W3 m ρ c (Proc.devRef .tc main_v26)) (W3 m ρ c (Proc.devRef .tc main_arg5))
      (W3 m ρ c (Proc.devRef .tc main_arg6)) (fun j => W3 m ρ c (Proc.devRef .tc main_v39) (ix2 0 j)) = _
  rw [W3_main_v38, W3_main_v39, W3_main_v26, W3_main_arg5, W3_main_arg6, W2_main_v1, W2_main_v3, W2_main_v12, W2_main_arg5,
    W2_main_arg6, W2_main_arg7, W1_main_v1, W1_main_v3, W1_main_v12, W1_main_arg5, W1_main_arg6, W1_main_arg7, first_region]
  unfold net
  refine congrArg _ (funext fun j => ?_)
  exact reshape_row _ _ j

end Cert.KernelIdeal.Result

end
-- ==== Proof.MeanLaw.lean ====
/-
  The neighbour mean, written two ways.

  The kernel program multiplies the neighbour sum by the column `1 / max (degree, 1)`; the reference divides it by the column
  `max (degree, 1)`. Entry by entry the first is `s · (1 / c)` and the second `s / c` with `c = max (degree v, 1) ≥ 1`, so
  `c ≠ 0`, and on the extended reals the product with the reciprocal of a nonzero `c` is the quotient by `c` for EVERY `s`,
  the infinities included: no input needs to be finite for this.

  The sums and the degree themselves are the same gather and scatter-add of the same operands in both programs, so they are
  never opened: the two programs' terms are compared as they stand, at an arbitrary float family.
-/
import proofs.«135917_j4569845203115_1_alg».proof.Proof.KernelHost
import proofs.«135917_j4569845203115_1_alg».proof.Proof.RefRead
import proofs.«135917_j4569845203115_1_alg».proof.Proof.Spec

noncomputable section

namespace Cert.MeanLaw

open Idealize.ShloMosaic Idealize.ShloMosaic.TcCoe
open Cert.KernelIdeal Cert.KernelIdeal.Gen Cert.KernelIdeal.Aggregate

/-- `s · (1 / c) = s / c` for a nonzero `c`, the one spelt by its f32 pattern. -/
theorem mul_recip_one_eq_div (s c : EReal) (hc : c ≠ 0) :
    s * Ideal.div (Ideal.ofBits .f32 0x3F800000#32) c = Ideal.div s c := by
  rw [Cert.Sage.ofBits_one_f32]; exact Cert.Sage.mul_recip_eq_div s c hc

/-- The sum of 128 features times the inverse-degree column is the sum divided by the clamped-degree column. -/
theorem mean128_eq_div (S : FVec Ideal S100000x128 .f32) (cnt : FVec Ideal S100000 .f32) :
    mulf S (broadcastInDim S100000x128 ![0, 1] bcast_S100000x1_S100000x128_0_1
        (broadcastInDim S100000x1 ![0] bcast_S100000_S100000x1_0
          (Host.divf (broadcastInDim S100000 ![] bcast_S_S100000 (constant (F := Ideal) S_ .f32 0x3F800000#32))
            (maximumf cnt (broadcastInDim S100000 ![] bcast_S_S100000 (constant (F := Ideal) S_ .f32 0x3F800000#32))))))
      = Host.divf S (broadcastInDim S100000x128 ![0, 1] bcast_S100000x1_S100000x128_0_1
        (broadcastInDim S100000x1 ![0] bcast_S100000_S100000x1_0
          (maximumf cnt (broadcastInDim S100000 ![] bcast_S_S100000 (constant (F := Ideal) S_ .f32 0x3F800000#32))))) := by
  funext i
  exact mul_recip_one_eq_div _ _ (Cert.Sage.max_one_ne_zero _)

/-- The same for 64 features. -/
theorem mean64_eq_div (S : FVec Ideal S100000x64 .f32) (cnt : FVec Ideal S100000 .f32) :
    mulf S (broadcastInDim S100000x64 ![0, 1] bcast_S100000x1_S100000x64_0_1
        (broadcastInDim S100000x1 ![0] bcast_S100000_S100000x1_0
          (Host.divf (broadcastInDim S100000 ![] bcast_S_S100000 (constant (F := Ideal) S_ .f32 0x3F800000#32))
            (maximumf cnt (broadcastInDim S100000 ![] bcast_S_S100000 (constant (F := Ideal) S_ .f32 0x3F800000#32))))))
      = Host.divf S (broadcastInDim S100000x64 ![0, 1] bcast_S100000x1_S100000x64_0_1
        (broadcastInDim S100000x1 ![0] bcast_S100000_S100000x1_0
          (maximumf cnt (broadcastInDim S100000 ![] bcast_S_S100000 (constant (F := Ideal) S_ .f32 0x3F800000#32))))) := by
  funext i
  exact mul_recip_one_eq_div _ _ (Cert.Sage.max_one_ne_zero _)

/-! ## The two programs' sums and degrees are one term -/

section OneTerm

variable {F : FTy → Type} [FloatOps F]

open Cert.ReferenceIdeal.ReadP in
/-- The reference's neighbour sum of the input features is the kernel program's. -/
theorem sum128_ref (x : (⟨S100000x128, .f32⟩ : BufTy).Contents (Elt F)) (e : (⟨S2x600000, .i32⟩ : BufTy).Contents (Elt F)) :
    sum128 x (edgeRow0 e) (edgeRow1 e) = val_main_v13 (F := F) x e := rfl

open Cert.ReferenceIdeal.ReadP in
/-- The reference's clamped-degree column, spread over 128 features, is the kernel program's degree clamped and spread. -/
theorem clamped128_ref (e : (⟨S2x600000, .i32⟩ : BufTy).Contents (Elt F)) :
    broadcastInDim S100000x128 ![0, 1] bcast_S100000x1_S100000x128_0_1
        (broadcastInDim S100000x1 ![0] bcast_S100000_S100000x1_0
          (maximumf (degree (edgeRow1 e)) (broadcastInDim S100000 ![] bcast_S_S100000 (constant S_ .f32 0x3F800000#32))))
      = val_main_v21 (F := F) e := rfl

open Cert.ReferenceIdeal.ReadP in
/-- The reference's neighbour sum of its hidden features is the kernel program's sum of the same matrix. -/
theorem sum64_ref (x0 : (⟨S100000x128, .f32⟩ : BufTy).Contents (Elt F)) (x1 : (⟨S2x600000, .i32⟩ : BufTy).Contents (Elt F))
    (x2 x3 : (⟨S128x64, .f32⟩ : BufTy).Contents (Elt F)) (x4 : (⟨S64, .f32⟩ : BufTy).Contents (Elt F)) :
    sum64 (val_main_v29 (F := F) x0 x1 x2 x3 x4) (edgeRow0 x1) (edgeRow1 x1) = val_main_v39 (F := F) x0 x1 x2 x3 x4 := rfl

open Cert.ReferenceIdeal.ReadP in
theorem clamped64_ref (e : (⟨S2x600000, .i32⟩ : BufTy).Contents (Elt F)) :
    broadcastInDim S100000x64 ![0, 1] bcast_S100000x1_S100000x64_0_1
        (broadcastInDim S100000x1 ![0] bcast_S100000_S100000x1_0
          (maximumf (degree (edgeRow1 e)) (broadcastInDim S100000 ![] bcast_S_S100000 (constant S_ .f32 0x3F800000#32))))
      = val_main_v47 (F := F) e := rfl

end OneTerm

/-! ## The means meet -/

open Cert.ReferenceIdeal.ReadP in
/-- The kernel program's mean of the input features is the reference's. -/
theorem mean128_ref (x : (⟨S100000x128, .f32⟩ : BufTy).Contents (Elt Ideal)) (e : (⟨S2x600000, .i32⟩ : BufTy).Contents (Elt Ideal)) :
    mean128 x (edgeRow0 e) (edgeRow1 e) (invDegree (edgeRow1 e)) = val_main_v22 (F := Ideal) x e := by
  unfold mean128 invDegree
  rw [mean128_eq_div, sum128_ref, clamped128_ref]
  rfl

open Cert.ReferenceIdeal.ReadP in
/-- The kernel program's mean of the reference's hidden features is the reference's. -/
theorem mean64_ref (x0 : (⟨S100000x128, .f32⟩ : BufTy).Contents (Elt Ideal)) (x1 : (⟨S2x600000, .i32⟩ : BufTy).Contents (Elt Ideal))
    (x2 x3 : (⟨S128x64, .f32⟩ : BufTy).Contents (Elt Ideal)) (x4 : (⟨S64, .f32⟩ : BufTy).Contents (Elt Ideal)) :
    mean64 (val_main_v29 (F := Ideal) x0 x1 x2 x3 x4) (edgeRow0 x1) (edgeRow1 x1) (invDegree (edgeRow1 x1))
      = val_main_v48 (F := Ideal) x0 x1 x2 x3 x4 := by
  unfold mean64 invDegree
  rw [mean64_eq_div, sum64_ref, clamped64_ref]
  rfl

end Cert.MeanLaw

end
-- ==== Proof.RefLayers.lean ====
/-
  The reference program's two layers, read entry by entry over the extended reals.

  First layer: entry (i, j) of the clamped linear part, max ((Σ_k agg1[i,k] · Wl1[k,j] + Σ_k x[i,k] · Wr1[k,j]) + b1[j]) 0,
  where agg1 is the mean of the neighbours' features and stays a closed term.

  Second layer: along each row the logarithm of the softmax of the linear part
  (Σ_k agg2[i,k] · Wl2[k,j] + Σ_k h[i,k] · Wr2[k,j]) + b2[j], with h the first layer's result and agg2 the mean of the
  neighbours' rows of h (again a closed term): with m the row's maximum, (lin - m) - log Σ_j exp (lin_j - m).
  The program folds the maximum from -∞ and then takes the maximum with -∞ once more; the second maximum changes
  nothing, whatever the word for -∞ denotes, because a fold of max from a value is at least that value.
-/
import proofs.«135917_j4569845203115_1_alg».proof.Proof.RefRead
import proofs.«135917_j4569845203115_1_alg».proof.Proof.Spec

noncomputable section

namespace Cert.ReferenceIdeal.Layers

open Cert.ReferenceIdeal Cert.ReferenceIdeal.Gen Cert.ReferenceIdeal.ReadP Cert.Sage
open Idealize.ShloMosaic Idealize.ShloMosaic.ValueIdx

/-- The first layer's result is the clamped linear part of the mean aggregate and the features: at (a, b) the two
    products' sums run over the 128 feature columns, the bias is read at b, and the clamp's other side is the splat 0. -/
theorem relu_stage (x0 : (⟨S100000x128, .f32⟩ : BufTy).Contents (Elt Ideal)) (x1 : (⟨S2x600000, .i32⟩ : BufTy).Contents (Elt Ideal))
    (x2 x3 : (⟨S128x64, .f32⟩ : BufTy).Contents (Elt Ideal)) (x4 : (⟨S64, .f32⟩ : BufTy).Contents (Elt Ideal)) :
    val_main_v29 (F := Ideal) x0 x1 x2 x3 x4
      = Cert.Sage.reluLayer (val_main_v22 (F := Ideal) x0 x1) x0 x2 x3 (fun j => x4 (ix1 j)) := by
  funext i
  obtain ⟨a, b, rfl⟩ : ∃ a b, i = ix2 a b := ⟨i 0, i 1, eq_ix2 i⟩
  have el23 : ∀ k : Fin 128, lidx_main_v23 (ix2 a b) k = ix2 a k := fun k =>
    funext fun c => Fin.ext (by match c with | ⟨0, _⟩ => rfl | ⟨1, _⟩ => rfl)
  have er23 : ∀ k : Fin 128, ridx_main_v23 (ix2 a b) k = ix2 k b := fun k =>
    funext fun c => Fin.ext (by match c with | ⟨0, _⟩ => rfl | ⟨1, _⟩ => rfl)
  have el24 : ∀ k : Fin 128, lidx_main_v24 (ix2 a b) k = ix2 a k := fun k =>
    funext fun c => Fin.ext (by match c with | ⟨0, _⟩ => rfl | ⟨1, _⟩ => rfl)
  have er24 : ∀ k : Fin 128, ridx_main_v24 (ix2 a b) k = ix2 k b := fun k =>
    funext fun c => Fin.ext (by match c with | ⟨0, _⟩ => rfl | ⟨1, _⟩ => rfl)
  have eb : idx_main_v26 (idx_main_v27 (ix2 a b)) = ix1 b :=
    funext fun c => Fin.ext (by match c with | ⟨0, _⟩ => rfl)
  rw [val_main_v29_apply, val_main_v28_apply, val_main_v25_apply, val_main_v23_apply, val_main_v24_apply,
    val_main_v27_apply, val_main_v26_apply, val_main_call0_v0_apply, val_main_call0_cst_apply]
  simp only [Ideal.maximumf_def, Ideal.addf_def, Ideal.ofBits_def, Ideal.ofBits_zero_f32, el23, er23, el24, er24, eb]
  rfl

/-- A maximum-reduction of a 100000 × 3 array along its rows, read at row r: the fold of max from the initial value's
    element over the row's three entries (the order is immaterial, max being commutative and associative). -/
theorem reduce_max_row (y : (⟨2, ![100000, 3]⟩ : Shape).Idx → EReal) (init : (⟨0, ![]⟩ : Shape).Idx → EReal)
    (h' : Shape.ReducesTo ⟨2, ![100000, 3]⟩ [1] ⟨1, ![100000]⟩) (hu : 0 < (⟨0, ![]⟩ : Shape).numel) (r : Fin 100000) :
    Host.reduce (FloatOps.maximumf (F := Ideal) (φ := .f32)) y init h' hu (ix1 r)
      = (Finset.univ : Finset (Fin 3)).fold max (init (Shape.Idx.first hu)) (fun k => y (ix2 r k)) := by
  have h : Shape.Reduces ⟨2, ![100000, 3]⟩ [1] ⟨1, ![100000]⟩ := by decide
  rw [Host.reduce_eq_fold_single (FloatOps.maximumf (F := Ideal) (φ := .f32)) y init h' h hu (ix1 r)]
  refine Finset.fold_congr (fun k _ => ?_)
  exact congrArg y (funext fun c => Fin.ext (by match c with | ⟨0, _⟩ => rfl | ⟨1, _⟩ => rfl))

/-- Taking the maximum of the row maximum with the value its fold started from changes nothing. -/
theorem max_rowMax {N K M : ℕ} (agg x : (⟨2, ![N, K]⟩ : Shape).Idx → EReal) (wl wr : (⟨2, ![K, M]⟩ : Shape).Idx → EReal)
    (b : Fin M → EReal) (i : Fin N) :
    max (Ideal.ofBits .f32 0xFF800000#32) (rowMax agg x wl wr b i) = rowMax agg x wl wr b i :=
  max_fold_self _ _ _

/-- The second layer's linear part at (a, b): the two products' sums run over the 64 hidden columns, the bias is read
    at b. The aggregate and the first layer's result stay closed terms. -/
theorem lin_stage (x0 : (⟨S100000x128, .f32⟩ : BufTy).Contents (Elt Ideal)) (x1 : (⟨S2x600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x3, .f32⟩ : BufTy).Contents (Elt Ideal)) (x7 : (⟨S3, .f32⟩ : BufTy).Contents (Elt Ideal))
    (a : Fin 100000) (b : Fin 3) :
    val_main_v54 (F := Ideal) x0 x1 x2 x3 x4 x5 x6 x7 (ix2 a b)
      = lin (val_main_v48 (F := Ideal) x0 x1 x2 x3 x4) (val_main_v29 (F := Ideal) x0 x1 x2 x3 x4) x5 x6 (fun j => x7 (ix1 j)) a b := by
  have el49 : ∀ k : Fin 64, lidx_main_v49 (ix2 a b) k = ix2 a k := fun k =>
    funext fun c => Fin.ext (by match c with | ⟨0, _⟩ => rfl | ⟨1, _⟩ => rfl)
  have er49 : ∀ k : Fin 64, ridx_main_v49 (ix2 a b) k = ix2 k b := fun k =>
    funext fun c => Fin.ext (by match c with | ⟨0, _⟩ => rfl | ⟨1, _⟩ => rfl)
  have el50 : ∀ k : Fin 64, lidx_main_v50 (ix2 a b) k = ix2 a k := fun k =>
    funext fun c => Fin.ext (by match c with | ⟨0, _⟩ => rfl | ⟨1, _⟩ => rfl)
  have er50 : ∀ k : Fin 64, ridx_main_v50 (ix2 a b) k = ix2 k b := fun k =>
    funext fun c => Fin.ext (by match c with | ⟨0, _⟩ => rfl | ⟨1, _⟩ => rfl)
  have eb : idx_main_v52 (idx_main_v53 (ix2 a b)) = ix1 b :=
    funext fun c => Fin.ext (by match c with | ⟨0, _⟩ => rfl)
  rw [val_main_v54_apply, val_main_v51_apply, val_main_v49_apply, val_main_v50_apply, val_main_v53_apply,
    val_main_v52_apply]
  simp only [Ideal.addf_def, el49, er49, el50, er50, eb]
  rfl

/-- The maximum-reduction's result at row r is the row maximum of the second layer's linear part. -/
theorem rowMax_stage (x0 : (⟨S100000x128, .f32⟩ : BufTy).Contents (Elt Ideal)) (x1 : (⟨S2x600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x3, .f32⟩ : BufTy).Contents (Elt Ideal)) (x7 : (⟨S3, .f32⟩ : BufTy).Contents (Elt Ideal))
    (r : Fin 100000) :
    val_main_call1_v0 (F := Ideal) x0 x1 x2 x3 x4 x5 x6 x7 (ix1 r)
      = rowMax (val_main_v48 (F := Ideal) x0 x1 x2 x3 x4) (val_main_v29 (F := Ideal) x0 x1 x2 x3 x4) x5 x6 (fun j => x7 (ix1 j)) r := by
  unfold val_main_call1_v0
  refine (reduce_max_row _ _ _ _ r).trans ?_
  unfold rowMax
  rw [val_main_call1_cst_apply, Ideal.ofBits_def]
  exact Finset.fold_congr (fun k _ => lin_stage x0 x1 x2 x3 x4 x5 x6 x7 r k)

/-- The shifted linear part at (a, c): the linear part minus its row's maximum. The program takes the maximum of the
    reduction's result with -∞ once more before it subtracts. -/
theorem shifted_stage (x0 : (⟨S100000x128, .f32⟩ : BufTy).Contents (Elt Ideal)) (x1 : (⟨S2x600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x3, .f32⟩ : BufTy).Contents (Elt Ideal)) (x7 : (⟨S3, .f32⟩ : BufTy).Contents (Elt Ideal))
    (a : Fin 100000) (c : Fin 3) :
    val_main_call1_v5 (F := Ideal) x0 x1 x2 x3 x4 x5 x6 x7 (ix2 a c)
      = lin (val_main_v48 (F := Ideal) x0 x1 x2 x3 x4) (val_main_v29 (F := Ideal) x0 x1 x2 x3 x4) x5 x6 (fun j => x7 (ix1 j)) a c
        - rowMax (val_main_v48 (F := Ideal) x0 x1 x2 x3 x4) (val_main_v29 (F := Ideal) x0 x1 x2 x3 x4) x5 x6 (fun j => x7 (ix1 j)) a := by
  have er : idx_main_call1_v3 (idx_main_call1_v4 (ix2 a c)) = ix1 a :=
    funext fun d => Fin.ext (by match d with | ⟨0, _⟩ => rfl)
  rw [val_main_call1_v5_apply, val_main_call1_v4_apply, val_main_call1_v3_apply, val_main_call1_v2_apply,
    val_main_call1_v1_apply, val_main_call1_cst_0_apply, er, rowMax_stage, lin_stage]
  simp only [Ideal.subf_def, Ideal.maximumf_def, Ideal.ofBits_def]
  rw [max_rowMax]

/-- The sum-reduction's result at row r: the sum over the row of the exponentials of the shifted linear part (the
    sum's initial value is 0). -/
theorem rowSum_stage (x0 : (⟨S100000x128, .f32⟩ : BufTy).Contents (Elt Ideal)) (x1 : (⟨S2x600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x3, .f32⟩ : BufTy).Contents (Elt Ideal)) (x7 : (⟨S3, .f32⟩ : BufTy).Contents (Elt Ideal))
    (r : Fin 100000) :
    val_main_call1_v7 (F := Ideal) x0 x1 x2 x3 x4 x5 x6 x7 (ix1 r)
      = ∑ j : Fin 3, Ideal.exp (lin (val_main_v48 (F := Ideal) x0 x1 x2 x3 x4) (val_main_v29 (F := Ideal) x0 x1 x2 x3 x4) x5 x6 (fun j => x7 (ix1 j)) r j
          - rowMax (val_main_v48 (F := Ideal) x0 x1 x2 x3 x4) (val_main_v29 (F := Ideal) x0 x1 x2 x3 x4) x5 x6 (fun j => x7 (ix1 j)) r) := by
  have e7 : ∀ k : Fin 3, idx_main_call1_v7 (ix1 r) k = ix2 r k := fun k =>
    funext fun d => Fin.ext (by match d with | ⟨0, _⟩ => rfl | ⟨1, _⟩ => rfl)
  rw [val_main_call1_v7_apply, val_main_call1_cst_1_apply, Ideal.ofBits_def, Ideal.ofBits_zero_f32, zero_add]
  refine Finset.sum_congr rfl fun k _ => ?_
  rw [e7, val_main_call1_v6_apply, shifted_stage, Ideal.hostUnary_exp_def]

/-- The second layer's result is the logarithm of the softmax along each row of its linear part. -/
theorem logsoftmax_stage (x0 : (⟨S100000x128, .f32⟩ : BufTy).Contents (Elt Ideal)) (x1 : (⟨S2x600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x3, .f32⟩ : BufTy).Contents (Elt Ideal)) (x7 : (⟨S3, .f32⟩ : BufTy).Contents (Elt Ideal)) :
    val_main_v55 (F := Ideal) x0 x1 x2 x3 x4 x5 x6 x7
      = Cert.Sage.logSoftmaxLayer (val_main_v48 (F := Ideal) x0 x1 x2 x3 x4) (val_main_v29 (F := Ideal) x0 x1 x2 x3 x4) x5 x6 (fun j => x7 (ix1 j)) := by
  funext i
  obtain ⟨a, b, rfl⟩ : ∃ a b, i = ix2 a b := ⟨i 0, i 1, eq_ix2 i⟩
  have es : idx_main_call1_v8 (idx_main_call1_v10 (ix2 a b)) = ix1 a :=
    funext fun d => Fin.ext (by match d with | ⟨0, _⟩ => rfl)
  rw [val_main_v55_apply, val_main_call1_v10_apply, val_main_call1_v9_apply, val_main_call1_v8_apply, es,
    rowSum_stage, shifted_stage, Ideal.subf_def, Ideal.hostUnary_log_def]
  rfl

end Cert.ReferenceIdeal.Layers

end
-- ==== Proof.lean ====
/-
  A two-layer graph network with mean aggregation, computed by two tiled kernels, against its plain reference.

  Both programs compute, for node features `x`, an edge table `e` and two layers of weights,

      h   = max ((mean(x) · Wl1 + x · Wr1) + b1, 0)
      out = log_softmax ((mean(h) · Wl2 + h · Wr2) + b2)   along each row,

  where `mean(f)[v]` is the sum of `f[src]` over the edges into `v`, over `max (in-degree of v, 1)`.

  They differ in three ways, none of which changes a value over the extended reals.
  (1) The kernel program multiplies the neighbour sum by `1 / max (degree, 1)` where the reference divides by
      `max (degree, 1)`: the divisor is at least one, hence not zero, and the product with the reciprocal of a nonzero
      extended real is the quotient, infinities included (Proof/MeanLaw.lean).
  (2) The kernels work on blocks of 5000 rows and narrow their operands to bf16 before the matrix products: a row of either
      layer depends on that row of the operands only, and narrowing is the identity on exact values, so the blocks written
      back are the blocks of the whole-matrix layer (Proof/Region0.lean, Proof/Region1.lean over Proof/Spec.lean).
  (3) The reference takes the row maximum once more against -∞ before subtracting it, which changes nothing
      (Proof/RefLayers.lean).
  The gathers and scatter-adds are the same operations on the same operands in both programs and are never opened.
  No step uses that the inputs are finite.

  The kernel program's run with its result array named is Proof/KernelRun.lean, the host operations around its regions
  Proof/KernelHost.lean, its result as a function of the arguments Proof/KernelValue.lean; the reference's run is
  Proof/RefRun.lean and its stages Proof/RefRead.lean.
-/
import proofs.«135917_j4569845203115_1_alg».proof.Defs
import proofs.«135917_j4569845203115_1_alg».proof.Proof.Gen.Kernel
import proofs.«135917_j4569845203115_1_alg».proof.Proof.Gen.Kernel.Skeleton
import proofs.«135917_j4569845203115_1_alg».proof.Proof.Gen.Kernel.Launch
import proofs.«135917_j4569845203115_1_alg».proof.Proof.Gen.Kernel.Points
import proofs.«135917_j4569845203115_1_alg».proof.Proof.Gen.Kernel.Frame
import proofs.«135917_j4569845203115_1_alg».proof.Proof.Gen.KernelIdeal
import proofs.«135917_j4569845203115_1_alg».proof.Proof.Gen.KernelIdeal.Skeleton
import proofs.«135917_j4569845203115_1_alg».proof.Proof.Gen.KernelIdeal.Launch
import proofs.«135917_j4569845203115_1_alg».proof.Proof.Gen.KernelIdeal.Points
import proofs.«135917_j4569845203115_1_alg».proof.Proof.Gen.KernelIdeal.Frame
import proofs.«135917_j4569845203115_1_alg».proof.Proof.Gen.ReferenceIdeal
import proofs.«135917_j4569845203115_1_alg».proof.Proof.Gen.Pre_finite_inputs
import proofs.«135917_j4569845203115_1_alg».proof.Proof.KernelRun
import proofs.«135917_j4569845203115_1_alg».proof.Proof.KernelValue
import proofs.«135917_j4569845203115_1_alg».proof.Proof.MeanLaw
import proofs.«135917_j4569845203115_1_alg».proof.Proof.RefRead
import proofs.«135917_j4569845203115_1_alg».proof.Proof.RefLayers
import Idealize.ShloMosaic.Adequacy
import Idealize.ShloMosaic.Init

noncomputable section

namespace Cert.Proof

open Idealize.ShloMosaic Idealize.ShloMosaic.ValueIdx Idealize.SL.Sem
open Cert.ReferenceIdeal.ReadP

/-- The kernel program's network is the reference's last stage, as functions of the eight arguments: the first mean by the
    law of the reciprocal, the hidden features by the reference's first layer read back, the second mean by the same law over
    those hidden features, and the result by the reference's second layer read back. -/
theorem net_eq
    (x : (⟨Cert.KernelIdeal.S100000x128, .f32⟩ : BufTy).Contents (Elt Ideal)) (e : (⟨Cert.KernelIdeal.S2x600000, .i32⟩ : BufTy).Contents (Elt Ideal))
    (wl1 wr1 : (⟨Cert.KernelIdeal.S128x64, .f32⟩ : BufTy).Contents (Elt Ideal)) (b1 : (⟨Cert.KernelIdeal.S64, .f32⟩ : BufTy).Contents (Elt Ideal))
    (wl2 wr2 : (⟨Cert.KernelIdeal.S64x3, .f32⟩ : BufTy).Contents (Elt Ideal)) (b2 : (⟨Cert.KernelIdeal.S3, .f32⟩ : BufTy).Contents (Elt Ideal)) :
    Cert.KernelIdeal.Result.net x e wl1 wr1 b1 wl2 wr2 b2 = val_main_v55 (F := Ideal) x e wl1 wr1 b1 wl2 wr2 b2 := by
  unfold Cert.KernelIdeal.Result.net Cert.KernelIdeal.Result.hidden
  rw [Cert.MeanLaw.mean128_ref, ← Cert.ReferenceIdeal.Layers.relu_stage x e wl1 wr1 b1, Cert.MeanLaw.mean64_ref]
  exact (Cert.ReferenceIdeal.Layers.logsoftmax_stage x e wl1 wr1 b1 wl2 wr2 b2).symm

/-- The word-level kernel program runs, without a fault, and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network of those arguments in their result
    arrays: the kernel program by its run and the value of its two regions, the reference by its run and `net_eq`. -/
theorem algebraic : Cert.algebraic_KernelIdeal_ReferenceIdeal := by
  intro m ρ m' ρ' _ hagree
  refine ⟨fun c => Cert.KernelIdeal.Result.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [val_main_v55_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (net_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
